-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S1x1x4096x64 : Shape := ⟨4, ![1, 1, 4096, 64]⟩
abbrev S4096x64 : Shape := ⟨2, ![4096, 64]⟩
abbrev S64x64 : Shape := ⟨2, ![64, 64]⟩

abbrev nBuf : Space → Nat
  | .hbm => 4
  | .vmem => 8
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x4096x64, .f32⟩
  | .local _ .vmem, ⟨7, _⟩ => ⟨S1x1x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  bitsLt_bf16_f32 : FTy.bits .bf16 < FTy.bits .f32
  shapeCasts_S4096x64_S1x1x4096x64 : S4096x64.ShapeCasts S1x1x4096x64
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S4x16x4096x64.size a
  hwx0_0 : ∀ i : grid0.Coords, EltTy.bits .f32 = 32 ∨ (Rect.block (s := S4x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x16x4096x64.size a
  hwx0_1 : ∀ i : grid0.Coords, EltTy.bits .f32 = 32 ∨ (Rect.block (s := S4x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S4x16x4096x64.size a
  hwx0_2 : ∀ i : grid0.Coords, EltTy.bits .f32 = 32 ∨ (Rect.block (s := S4x16x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x64.size a ≤ S4x16x4096x64.size a
  hwx0_3 : ∀ i : grid0.Coords, EltTy.bits .f32 = 32 ∨ (Rect.block (s := S4x16x4096x64) S1x1x4096x64.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x16x64x64 : Shape := ⟨4, ![4, 16, 64, 64]⟩

abbrev nBuf : Space → Nat
  | .hbm => 5
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x64x64, .f32⟩
  | .hbm, ⟨4, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.LibColDot.lean ====
/-
  A matrix product that contracts axis 0 of BOTH operands: the left operand is held transposed, [k × n], the right one
  [k × m], and entry (p, q) of the [n × m] result is the sum over the contracted coordinate κ of left (κ, p) times
  right (κ, q) — column p of the left matrix against column q of the right one. On the MXU into a zero accumulator it
  reads at (p, q) as exactly that sum, whatever the operands' formats: at the extended reals a change of format is the
  identity.
-/
import Idealize.ShloMosaic.PureOps.Ideal
import Idealize.ShloMosaic.PureOps.Ideal.Laws
import Idealize.ShloMosaic.Lib.ValueIdx

noncomputable section

open scoped BigOperators

namespace Idealize.ShloMosaic.ColDotSpec

open Idealize.ShloMosaic Idealize.ShloMosaic.ValueIdx

/-- Column `p` of `a` (a [k × n] matrix) against column `q` of `w` (a [k × m] matrix). -/
def colDot {n k m : Nat} (a : (⟨2, ![k, n]⟩ : Shape).Idx → EReal) (w : (⟨2, ![k, m]⟩ : Shape).Idx → EReal)
    (p : Fin n) (q : Fin m) : EReal :=
  ∑ κ : Fin k, a (ix2 κ p) * w (ix2 κ q)

/-- Dimension numbers of a [k × n]ᵀ · [k × m] product: one contracted axis of extent `k`, the left operand read at
    (κ, row), the right at (κ, column). -/
structure ColDot {n k m : Nat} (d : DotDims ⟨2, ![k, n]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx) (h : 0 < d.contr.rank), (d.lhsIdx i q 0).val = (q ⟨0, h⟩).val
  l1 : ∀ (i : (⟨2, ![n, m]⟩ : Shape).Idx) (q : d.contr.Idx), (d.lhsIdx i q 1).val = (i 0).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![k, n]⟩ ⟨2, ![k, m]⟩ ⟨2, ![n, m]⟩}

/-- The contracted sum, re-indexed by the contracted axis's coordinate. -/
theorem ColDot.sum_eq (hd : ColDot d) (a : (⟨2, ![k, n]⟩ : Shape).Idx → EReal) (w : (⟨2, ![k, m]⟩ : Shape).Idx → EReal)
    (j : (⟨2, ![n, m]⟩ : Shape).Idx) :
    ∑ q : d.contr.Idx, a (d.lhsIdx j q) * w (d.rhsIdx j q) = colDot a w (j 0) (j 1) := by
  have h0 : 0 < d.contr.rank := by rw [hd.rank]; exact Nat.one_pos
  unfold colDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 κ (j 0) := funext fun a => Fin.ext (by
    match a with
    | ⟨0, _⟩ => exact (hd.l0 _ _ h0).trans hk
    | ⟨1, _⟩ => exact hd.l1 _ _)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): column `p` of the left operand against column `q` of the
    right one. -/
theorem matmul_zero_colAt {φ₁ φ₂ : FTy} (hd : ColDot d) (prec : Option ContractPrecision) (a : FVec Ideal ⟨2, ![k, n]⟩ φ₁)
    (w : FVec Ideal ⟨2, ![k, m]⟩ φ₂) (j : (⟨2, ![n, m]⟩ : Shape).Idx) :
    FloatOps.matmul d prec a w (constant ⟨2, ![n, m]⟩ .f32 0x00000000#32) j = colDot (fun i => a i) (fun i => w i) (j 0) (j 1) := by
  rw [Ideal.matmul_constant_zero_apply]
  exact hd.sum_eq (fun i => a i) (fun i => w i) j

end

end Idealize.ShloMosaic.ColDotSpec

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.BodyAtIndex.lean ====
/-
  What one grid point computes. The body loads the point's query, key and value blocks (each [1, 1, 4096, 64]), views
  them as 4096 × 64 matrices, forms the 64 × 64 key-value state as keysᵀ · values on the matrix unit (contracting the
  4096 sequence positions, into a zero accumulator), and multiplies the queries by that state (contracting the 64
  features, into a zero accumulator). At the extended reals the changes of float format are the identity, so entry
  (0, 0, s, e) of the stored block is Σ_d q (s, d) · Σ_s' k (s', d) · v (s', e).
-/
import proofs.«145677_j69810398429420_1_alg».proof.Proof.Gen.KernelIdeal.Skeleton
import proofs.«145677_j69810398429420_1_alg».proof.Proof.LibColDot
import proofs.«145677_j69810398429420_1_alg».proof.Proof.LibSageSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Idealize.ShloMosaic.ColDotSpec Idealize.ShloMosaic.SageSpec

/-! ## The two products' dimension numbers, axis by axis -/

/-- keysᵀ · values: the left operand's axis 0 is the contracted one. -/
theorem kv_lhs_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
/-- keysᵀ · values: the left operand's axis 1 is the result's row. -/
theorem kv_lhs_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
/-- keysᵀ · values: the right operand's axis 0 is the contracted one. -/
theorem kv_rhs_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
/-- keysᵀ · values: the right operand's axis 1 is the result's column. -/
theorem kv_rhs_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- The first product contracts axis 0 of both operands over the 4096 sequence positions. -/
theorem kv_dims : ColDot (n := 64) (k := 4096) (m := 64) dot_S4096x64_S4096x64_S64x64_0_0_1_1_n_n where
  rank := rfl
  size := fun _ => rfl
  l0 := fun i q _ => kv_lhs_0 i q
  l1 := fun i q => kv_lhs_1 i q
  r0 := fun i q _ => kv_rhs_0 i q
  r1 := fun i q => kv_rhs_1 i q

/-- queries · state: the left operand's axis 0 is the result's row. -/
theorem qs_lhs_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
/-- queries · state: the left operand's axis 1 is the contracted one. -/
theorem qs_lhs_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
/-- queries · state: the right operand's axis 0 is the contracted one. -/
theorem qs_rhs_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
/-- queries · state: the right operand's axis 1 is the result's column. -/
theorem qs_rhs_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The second product is a plain rows-by-columns one over the 64 features. -/
theorem qs_dims : PlainDot (n := 4096) (k := 64) (m := 64) dot_S4096x64_S64x64_S4096x64_1_0_0_1_n_n where
  rank := rfl
  size := fun _ => rfl
  l0 := fun i q => qs_lhs_0 i q
  l1 := fun i q _ => qs_lhs_1 i q
  r0 := fun i q _ => qs_rhs_0 i q
  r1 := fun i q => qs_rhs_1 i q

/-! ## A block viewed as a matrix -/

/-- The [1, 1, 4096, 64] block viewed as a 4096 × 64 matrix reads (s, d) at (0, 0, s, d): the same row-major position. -/
theorem block_as_matrix (x : Vec Ideal S1x1x4096x64 .f32) (s : Fin 4096) (d : Fin 64) :
    shapeCast S4096x64 x shapeCasts_S1x1x4096x64_S4096x64 (ix2 s d) = x (ix4 0 0 s d) := by
  refine shapeCast_apply x _ (ix2 s d) (ix4 0 0 s d) ?_
  rw [Shape.rowMajor_val_two, Shape.rowMajor_val_four]
  show ((0 * 1 + 0) * 4096 + s.val) * 64 + d.val = s.val * 64 + d.val
  omega

/-- A 4096 × 64 matrix stored as a [1, 1, 4096, 64] block reads (0, 0, s, e) at (s, e). -/
theorem matrix_as_block (y : FVec Ideal S4096x64 .f32) (s : Fin 4096) (e : Fin 64) :
    shapeCast S1x1x4096x64 y shapeCasts_S4096x64_S1x1x4096x64 (ix4 0 0 s e) = y (ix2 s e) := by
  refine shapeCast_apply y _ (ix4 0 0 s e) (ix2 s e) ?_
  rw [Shape.rowMajor_val_two, Shape.rowMajor_val_four]
  show s.val * 64 + e.val = ((0 * 1 + 0) * 4096 + s.val) * 64 + e.val
  omega

/-! ## The stored block, entry by entry -/

/-- Entry (0, 0, s, e) of what the body stores: the query row `s` against column `e` of the key-value state of the
    loaded key and value blocks. -/
theorem stored_at (x0 x1 x2 : Vec Ideal S1x1x4096x64 .f32) (s : Fin 4096) (e : Fin 64) :
    k0_pay1 (F := Ideal) x0 x1 x2 (ix4 0 0 s e)
      = ∑ d : Fin 64, x0 (ix4 0 0 s d) * ∑ s' : Fin 4096, x1 (ix4 0 0 s' d) * x2 (ix4 0 0 s' e) := by
  unfold k0_pay1
  refine (matrix_as_block _ s e).trans ?_
  refine (matmul_zero_at qs_dims none _ _ (ix2 s e)).trans ?_
  unfold rowDot
  refine Finset.sum_congr rfl fun d _ => ?_
  refine congrArg₂ (· * ·) (block_as_matrix x0 s d) ?_
  refine (matmul_zero_colAt kv_dims none _ _ (ix2 d e)).trans ?_
  unfold colDot
  exact Finset.sum_congr rfl fun s' _ => congrArg₂ (· * ·) (block_as_matrix x1 s' d) (block_as_matrix x2 s' e)

end Cert.KernelIdeal.Body

end
-- ==== Proof.AttnSpec.lean ====
/-
  Linear attention without a softmax, per batch entry b and head h: the keys and values are first folded over the
  sequence axis into a 64 × 64 state, state (d, e) = Σ_s k (s, d) · v (s, e), and every query row is then taken against
  that state, out (s, e) = Σ_d q (s, d) · state (d, e). Both sums are finite sums of products of extended reals; nothing
  here needs the entries to be finite, because both programs form exactly these sums, grouped exactly so.
-/
import Idealize.ShloMosaic.PureOps.Ideal
import Idealize.ShloMosaic.Lib.ValueIdx

noncomputable section

open scoped BigOperators

namespace Cert.LinearAttention

open Idealize.ShloMosaic Idealize.ShloMosaic.ValueIdx

/-- A [4, 16, 4096, 64] array of extended reals: batch, head, sequence position, feature. -/
abbrev Arr : Type := (⟨4, ![4, 16, 4096, 64]⟩ : Shape).Idx → EReal

/-- The key-value state of batch entry `b`, head `h`, at (d, e): column `d` of the keys against column `e` of the
    values, summed over the 4096 sequence positions. -/
def kvState (k v : Arr) (b : Fin 4) (h : Fin 16) (d e : Fin 64) : EReal :=
  ∑ s : Fin 4096, k (ix4 b h s d) * v (ix4 b h s e)

/-- The attention output: query row (b, h, s) against column `e` of that head's key-value state. -/
def attend (q k v : Arr) : Arr :=
  fun i => ∑ d : Fin 64, q (ix4 (i 0) (i 1) (i 2) d) * kvState k v (i 0) (i 1) d (i 3)

end Cert.LinearAttention

end
-- ==== Proof.WholeArray.lean ====
/-
  From the grid points to the whole result array. The grid has one point per (batch entry, head); each of the four
  windows moves with it, its block the [1, 1, 4096, 64] slab at (b, h, 0, 0). So the three input blocks at a point are
  the query, key and value slabs of that (b, h), the block written back is the attention output of those slabs, which is
  the specification's output read through the same slab, and the 64 slabs cover the result array.
-/
import proofs.«145677_j69810398429420_1_alg».proof.Proof.Gen.KernelIdeal.Frame
import proofs.«145677_j69810398429420_1_alg».proof.Proof.Gen.KernelIdeal.Value
import proofs.«145677_j69810398429420_1_alg».proof.Proof.BodyAtIndex
import proofs.«145677_j69810398429420_1_alg».proof.Proof.AttnSpec
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Body Cert.LinearAttention
open Idealize.ShloMosaic.ValueIdx

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- Decided over the 64 grid points: every window's block index is the output window's, and that index is
    (b, h, 0, 0) with b < 4 and h < 16. -/
theorem block_index : ∀ t : Fin cfg0.N,
    (win0_0.index t (0 : Fin 4) = win0_3.index t (0 : Fin 4) ∧ win0_0.index t (1 : Fin 4) = win0_3.index t (1 : Fin 4)
      ∧ win0_0.index t (2 : Fin 4) = 0 ∧ win0_0.index t (3 : Fin 4) = 0)
    ∧ (win0_1.index t (0 : Fin 4) = win0_3.index t (0 : Fin 4) ∧ win0_1.index t (1 : Fin 4) = win0_3.index t (1 : Fin 4)
      ∧ win0_1.index t (2 : Fin 4) = 0 ∧ win0_1.index t (3 : Fin 4) = 0)
    ∧ (win0_2.index t (0 : Fin 4) = win0_3.index t (0 : Fin 4) ∧ win0_2.index t (1 : Fin 4) = win0_3.index t (1 : Fin 4)
      ∧ win0_2.index t (2 : Fin 4) = 0 ∧ win0_2.index t (3 : Fin 4) = 0)
    ∧ win0_3.index t (0 : Fin 4) < 4 ∧ win0_3.index t (1 : Fin 4) < 16
    ∧ win0_3.index t (2 : Fin 4) = 0 ∧ win0_3.index t (3 : Fin 4) = 0 :=
  (by decide +kernel : ∀ t : Fin grid0.N, _)

/-- Every (batch entry, head) is some grid point's. -/
theorem block_onto : ∀ (b : Fin 4) (h : Fin 16), ∃ t : Fin cfg0.N,
    win0_3.index t (0 : Fin 4) = b.val ∧ win0_3.index t (1 : Fin 4) = h.val :=
  (by decide +kernel : ∀ (b : Fin 4) (h : Fin 16), ∃ t : Fin grid0.N,
    win0_3.index t (0 : Fin 4) = b.val ∧ win0_3.index t (1 : Fin 4) = h.val)

/-- The batch entry of grid point `t`. -/
def batchOf (t : Fin cfg0.N) : Fin 4 := ⟨win0_3.index t (0 : Fin 4), (block_index t).2.2.2.1⟩
/-- The head of grid point `t`. -/
def headOf (t : Fin cfg0.N) : Fin 16 := ⟨win0_3.index t (1 : Fin 4), (block_index t).2.2.2.2.1⟩

/-! ## The input blocks at a point are the arguments' slabs -/

/-- The query block at point `t`, at (0, 0, s, d), is the query array at (b, h, s, d). -/
theorem query_block (c : Dev nD) (t : Fin cfg0.N) (s : Fin 4096) (d : Fin 64) :
    (iblk m c 0 t : Vec Ideal S1x1x4096x64 .f32) (ix4 0 0 s d)
      = (m ((c : Thread nD τ).loc main_arg0) : Arr) (ix4 (batchOf t) (headOf t) s d) := by
  obtain ⟨⟨e0, e1, e2, e3⟩, -, -, -⟩ := block_index t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = win0_3.index t (0 : Fin 4); omega
  | ⟨1, _⟩ => show win0_0.index t (1 : Fin 4) * 1 + 1 * 0 = win0_3.index t (1 : Fin 4); omega
  | ⟨2, _⟩ => show win0_0.index t (2 : Fin 4) * 4096 + 1 * s.val = s.val; omega
  | ⟨3, _⟩ => show win0_0.index t (3 : Fin 4) * 64 + 1 * d.val = d.val; omega

/-- The key block at point `t`, at (0, 0, s, d), is the key array at (b, h, s, d). -/
theorem key_block (c : Dev nD) (t : Fin cfg0.N) (s : Fin 4096) (d : Fin 64) :
    (iblk m c 1 t : Vec Ideal S1x1x4096x64 .f32) (ix4 0 0 s d)
      = (m ((c : Thread nD τ).loc main_arg1) : Arr) (ix4 (batchOf t) (headOf t) s d) := by
  obtain ⟨-, ⟨e0, e1, e2, e3⟩, -, -⟩ := block_index t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = win0_3.index t (0 : Fin 4); omega
  | ⟨1, _⟩ => show win0_1.index t (1 : Fin 4) * 1 + 1 * 0 = win0_3.index t (1 : Fin 4); omega
  | ⟨2, _⟩ => show win0_1.index t (2 : Fin 4) * 4096 + 1 * s.val = s.val; omega
  | ⟨3, _⟩ => show win0_1.index t (3 : Fin 4) * 64 + 1 * d.val = d.val; omega

/-- The value block at point `t`, at (0, 0, s, e), is the value array at (b, h, s, e). -/
theorem value_block (c : Dev nD) (t : Fin cfg0.N) (s : Fin 4096) (d : Fin 64) :
    (iblk m c 2 t : Vec Ideal S1x1x4096x64 .f32) (ix4 0 0 s d)
      = (m ((c : Thread nD τ).loc main_arg2) : Arr) (ix4 (batchOf t) (headOf t) s d) := by
  obtain ⟨-, -, ⟨e0, e1, e2, e3⟩, -⟩ := block_index t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * 0 = win0_3.index t (0 : Fin 4); omega
  | ⟨1, _⟩ => show win0_2.index t (1 : Fin 4) * 1 + 1 * 0 = win0_3.index t (1 : Fin 4); omega
  | ⟨2, _⟩ => show win0_2.index t (2 : Fin 4) * 4096 + 1 * s.val = s.val; omega
  | ⟨3, _⟩ => show win0_2.index t (3 : Fin 4) * 64 + 1 * d.val = d.val; omega

/-! ## What a point writes back -/

/-- The result the kernel leaves: the attention output of the three argument arrays. -/
abbrev result (c : Dev nD) : Arr :=
  attend (m ((c : Thread nD τ).loc main_arg0)) (m ((c : Thread nD τ).loc main_arg1)) (m ((c : Thread nD τ).loc main_arg2))

/-- Over blocks that are the (b, h) slabs of three arrays, the stored block at (0, 0, s, e) is those arrays' attention
    output at (b, h, s, e). -/
theorem stored_is_attend (Q K W : Arr) (x0 x1 x2 : Vec Ideal S1x1x4096x64 .f32) (b : Fin 4) (h : Fin 16)
    (h0 : ∀ s d, x0 (ix4 0 0 s d) = Q (ix4 b h s d)) (h1 : ∀ s d, x1 (ix4 0 0 s d) = K (ix4 b h s d))
    (h2 : ∀ s d, x2 (ix4 0 0 s d) = W (ix4 b h s d)) (s : Fin 4096) (e : Fin 64) :
    k0_pay1 (F := Ideal) x0 x1 x2 (ix4 0 0 s e) = attend Q K W (ix4 b h s e) := by
  rw [stored_at]
  unfold attend kvState
  simp only [h0, h1, h2]

/-- WHAT POINT `t` WRITES BACK is the result read through the point's slab. -/
theorem written_back (c : Dev nD) (t : Fin cfg0.N) :
    (dats m 0 c).flushed 3 t = ((cfg0.win 3).blk t).view.read (Elt Ideal) (result m c) := by
  rw [flushed3]
  unfold out0_3
  rw [View.canon_unit_zero zero_offsets]
  simp only [View.ld_unit_zero (S := S1x1x4096x64) zero_offsets]
  obtain ⟨-, -, -, hb, hh, z2, z3⟩ := block_index t
  funext j
  have hj0 : (j 0).val = 0 := by have hlt : (j 0).val < 1 := (j 0).isLt; omega
  have hj1 : (j 1).val = 0 := by have hlt : (j 1).val < 1 := (j 1).isLt; omega
  have hj : j = ix4 0 0 (j 2) (j 3) := funext fun a => Fin.ext (by
    match a with
    | ⟨0, _⟩ => exact hj0
    | ⟨1, _⟩ => exact hj1
    | ⟨2, _⟩ => rfl
    | ⟨3, _⟩ => rfl)
  show k0_pay1 (F := Ideal) (iblk m c 0 t) (iblk m c 1 t) (iblk m c 2 t) j = result m c (((cfg0.win 3).blk t).view.emb j)
  have hemb : ((cfg0.win 3).blk t).view.emb j = ix4 (batchOf t) (headOf t) (j 2) (j 3) := by
    funext a
    apply Fin.ext
    match a with
    | ⟨0, _⟩ => show win0_3.index t (0 : Fin 4) * 1 + 1 * (j 0).val = win0_3.index t (0 : Fin 4); omega
    | ⟨1, _⟩ => show win0_3.index t (1 : Fin 4) * 1 + 1 * (j 1).val = win0_3.index t (1 : Fin 4); omega
    | ⟨2, _⟩ => show win0_3.index t (2 : Fin 4) * 4096 + 1 * (j 2).val = (j 2).val; omega
    | ⟨3, _⟩ => show win0_3.index t (3 : Fin 4) * 64 + 1 * (j 3).val = (j 3).val; omega
  rw [hemb, hj]
  exact stored_is_attend _ _ _ (iblk m c 0 t) (iblk m c 1 t) (iblk m c 2 t) (batchOf t) (headOf t)
    (query_block m c t) (key_block m c t) (value_block m c t) (j 2) (j 3)

/-! ## The slabs cover the array -/

/-- An index of the result array is in point `t`'s slab iff each coordinate is in the slab's range on its axis. -/
theorem mem_slab (t : Fin cfg0.N) (i : S4x16x4096x64.Idx) :
    i ∈ ((cfg0.win 3).blk t).view.set ↔ ∀ a : Fin 4, win0_3.index t a * S1x1x4096x64.size a ≤ (i a).val ∧ (i a).val < win0_3.index t a * S1x1x4096x64.size a + S1x1x4096x64.size a := by
  show i ∈ ((View.whole main_v0).slice (win0_3.rect t)).set ↔ _
  rw [View.set_slice_whole, Rect.mem_set_unit]
  exact Iff.rfl

/-- Every index of the result array lies in the slab of the point of its batch entry and head. -/
theorem covered (i : S4x16x4096x64.Idx) : ∃ t : Fin cfg0.N, (cfg0.win 3).flush t = true ∧ i ∈ ((cfg0.win 3).blk t).view.set := by
  obtain ⟨t, q0, q1⟩ := block_onto (i 0) (i 1)
  obtain ⟨-, -, -, -, -, z2, z3⟩ := block_index t
  have hi2 : (i 2).val < 4096 := (i 2).isLt
  have hi3 : (i 3).val < 64 := (i 3).isLt
  refine ⟨t, flush0_3 t, ?_⟩
  rw [mem_slab]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- THE RESULT ARRAY after the run is the attention output of the argument arrays. -/
theorem final_result (c : Dev nD) : (dats m 0 c).arrAt 3 cfg0.N = result m c :=
  (dats m 0 c).arrAt_eq_of_cover 3 (result m c) (fun t _ => written_back m c t) covered

/-- The run, read: the result array at the attention output of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_result m c), (h c).2⟩)
    (Cert.KernelIdeal.Value.run_blocks m ρ)

end Cert.KernelIdeal.Whole

end
-- ==== Proof.ReferenceIsAttend.lean ====
/-
  The reference forms the key-value state with one batched product (batch axes b and h, contracting the sequence axis
  of the keys against the sequence axis of the values) and the output with a second one (contracting the queries'
  feature axis against the state's first feature axis). Read at an index, the two products are exactly the two nested
  sums of the specification: nothing is regrouped.
-/
import proofs.«145677_j69810398429420_1_alg».proof.Proof.Gen.ReferenceIdeal.Read
import proofs.«145677_j69810398429420_1_alg».proof.Proof.AttnSpec

noncomputable section

open scoped BigOperators

namespace Cert.ReferenceIdeal.Attn

open Cert.ReferenceIdeal Cert.ReferenceIdeal.Read Cert.LinearAttention Idealize.ShloMosaic Idealize.ShloMosaic.ValueIdx

/-- The second product reads the queries at (b, h, s, d). -/
theorem query_index (i : S4x16x4096x64.Idx) (d : Fin 64) : lidx_main_v1 i d = ix4 (i 0) (i 1) (i 2) d :=
  funext fun a => Fin.ext (by match a with | ⟨0, _⟩ => rfl | ⟨1, _⟩ => rfl | ⟨2, _⟩ => rfl | ⟨3, _⟩ => rfl)

/-- The first product, at the state's entry (b, h, d, e), reads the keys at (b, h, s, d). -/
theorem key_index (i : S4x16x4096x64.Idx) (d : Fin 64) (s : Fin 4096) :
    lidx_main_v0 (ridx_main_v1 i d) s = ix4 (i 0) (i 1) s d :=
  funext fun a => Fin.ext (by match a with | ⟨0, _⟩ => rfl | ⟨1, _⟩ => rfl | ⟨2, _⟩ => rfl | ⟨3, _⟩ => rfl)

/-- and the values at (b, h, s, e). -/
theorem value_index (i : S4x16x4096x64.Idx) (d : Fin 64) (s : Fin 4096) :
    ridx_main_v0 (ridx_main_v1 i d) s = ix4 (i 0) (i 1) s (i 3) :=
  funext fun a => Fin.ext (by match a with | ⟨0, _⟩ => rfl | ⟨1, _⟩ => rfl | ⟨2, _⟩ => rfl | ⟨3, _⟩ => rfl)

/-- The reference's result is the specification's attention output of its three arguments. -/
theorem result_eq (q k v : Arr) : val_main_v1 (F := Ideal) q k v = attend q k v := by
  funext i
  rw [val_main_v1_apply]
  unfold attend kvState
  refine Finset.sum_congr rfl fun d _ => ?_
  rw [val_main_v0_apply, query_index]
  refine congrArg (q (ix4 (i 0) (i 1) (i 2) d) * ·) (Finset.sum_congr rfl fun s _ => ?_)
  rw [key_index, value_index]
  rfl

end Cert.ReferenceIdeal.Attn

end
-- ==== Proof.Equivalence.lean ====
/-
  The two idealized programs end with the same array. The kernel's result array is the attention output of its three
  arguments (the grid's slabs put together); the reference's two batched products, read at an index, are the same nested
  sums of the same arguments. Run from memories that agree on the arguments, both are one function of one triple of arrays.
-/
import proofs.«145677_j69810398429420_1_alg».proof.Defs
import proofs.«145677_j69810398429420_1_alg».proof.Proof.Gen.Pre_finite_inputs
import proofs.«145677_j69810398429420_1_alg».proof.Proof.WholeArray
import proofs.«145677_j69810398429420_1_alg».proof.Proof.ReferenceIsAttend

noncomputable section

open Idealize.ShloMosaic Idealize.ShloMosaic.TcCoe Idealize.SL.Sem

namespace Cert.Proof.AttnClaims

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals the kernel's result array and the reference's are the attention output of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Attn.result_eq, (hagree c).1, (hagree c).2.1, (hagree c).2.2]

end Cert.Proof.AttnClaims

end
-- ==== Proof.lean ====
/- Linear attention without a softmax, out = q · (kᵀ · v) per batch entry and head, as a kernel over a (batch, head) grid
   against two batched products on the host. The word-level kernel and its idealization run and leave their arguments
   unchanged (their generated frames); the reference's frame is its run; the idealization rewrote nothing, so it is
   the kernel's own text read at the extended reals; and there both programs compute, at every index (b, h, s, e),
   Σ_d q (b, h, s, d) · Σ_s' k (b, h, s', d) · v (b, h, s', e), grouped the same way. -/
import proofs.«145677_j69810398429420_1_alg».proof.Defs
import proofs.«145677_j69810398429420_1_alg».proof.Proof.Gen.Kernel
import proofs.«145677_j69810398429420_1_alg».proof.Proof.Gen.Kernel.Skeleton
import proofs.«145677_j69810398429420_1_alg».proof.Proof.Gen.Kernel.Launch
import proofs.«145677_j69810398429420_1_alg».proof.Proof.Gen.Kernel.Points
import proofs.«145677_j69810398429420_1_alg».proof.Proof.Gen.Kernel.Frame
import proofs.«145677_j69810398429420_1_alg».proof.Proof.Gen.KernelIdeal
import proofs.«145677_j69810398429420_1_alg».proof.Proof.Gen.KernelIdeal.Skeleton
import proofs.«145677_j69810398429420_1_alg».proof.Proof.Gen.KernelIdeal.Launch
import proofs.«145677_j69810398429420_1_alg».proof.Proof.Gen.KernelIdeal.Points
import proofs.«145677_j69810398429420_1_alg».proof.Proof.Gen.KernelIdeal.Frame
import proofs.«145677_j69810398429420_1_alg».proof.Proof.Gen.ReferenceIdeal
import proofs.«145677_j69810398429420_1_alg».proof.Proof.Gen.Pre_finite_inputs
import proofs.«145677_j69810398429420_1_alg».proof.Proof.Gen.KernelIdeal.Value
import proofs.«145677_j69810398429420_1_alg».proof.Proof.Gen.ReferenceIdeal.Run
import proofs.«145677_j69810398429420_1_alg».proof.Proof.Gen.ReferenceIdeal.Read
import proofs.«145677_j69810398429420_1_alg».proof.Proof.Equivalence
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  AttnClaims.frame_reference,
  trivial,
  AttnClaims.algebraic⟩

end Cert.Proof

end
